-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BlockedSum.lean ====
/-
  A finite sum taken in consecutive blocks of equal length: in any commutative monoid, the sum over the first
  `n · m` indices is the sum, block by block, of the `m` terms of each block. (Addition of extended reals is
  commutative and associative, so this holds there with no finiteness assumption.)
-/
import Mathlib.Algebra.BigOperators.Fin

namespace Cert.BlockedSum

open Finset

variable {M : Type*} [AddCommMonoid M]

/-- `∑_{d < n·m} g d = ∑_{b < n} ∑_{k < m} g (b·m + k)`. -/
theorem sum_range_mul (g : ℕ → M) (m : ℕ) : ∀ n : ℕ,
    ∑ d ∈ range (n * m), g d = ∑ b ∈ range n, ∑ k ∈ range m, g (b * m + k)
  | 0 => by simp
  | n + 1 => by rw [Nat.succ_mul, sum_range_add, sum_range_succ, sum_range_mul g m n]

/-- The same with the whole sum and each block's sum indexed by `Fin`. -/
theorem sum_fin_mul (g : ℕ → M) (n m : ℕ) :
    ∑ d : Fin (n * m), g d.val = ∑ b ∈ range n, ∑ k : Fin m, g (b * m + k.val) := by
  rw [Fin.sum_univ_eq_sum_range, sum_range_mul]
  exact sum_congr rfl fun b _ => (Fin.sum_univ_eq_sum_range (fun k => g (b * m + k)) m).symm

end Cert.BlockedSum
-- ==== Proof.LinearSpec.lean ====
/-
  The linear layer as one function of its three arrays, over the extended reals:

      out[n, o] = (∑_{d < 4096} X[n, d] · W[o, d]) + bias[o]        (X : 8192 × 4096, W : 4096 × 4096).

  The contraction over `d` is also written in four chunks of 1024 consecutive columns — the order in which a
  blocked product accumulates it: the partial sum after `r + 1` chunks, and the fact that all four chunks together
  are the whole contraction (a regrouping of one finite sum; no finiteness of the entries is needed).
-/
import Idealize.ShloMosaic.PureOps.Ideal.Laws
import Idealize.ShloMosaic.Lib.ValueIdx
import proofs.«126672_j33483565039897_1_alg».proof.Proof.BlockedSum

noncomputable section

namespace Cert.Linear

open Idealize.ShloMosaic Idealize.ShloMosaic.ValueIdx Finset

/-- The shapes of the flattened input and of the weight. -/
abbrev SX : Shape := ⟨2, ![8192, 4096]⟩
abbrev SW : Shape := ⟨2, ![4096, 4096]⟩

variable (X : FVec Ideal SX .f32) (W : FVec Ideal SW .f32)

/-- `X[P, d] · W[Q, d]` with the three coordinates plain naturals (zero off the matrices: never read there). -/
def term (P Q d : ℕ) : EReal :=
  if h : P < 8192 ∧ Q < 4096 ∧ d < 4096 then X (ix2 ⟨P, h.1⟩ ⟨d, h.2.2⟩) * W (ix2 ⟨Q, h.2.1⟩ ⟨d, h.2.2⟩) else 0

theorem term_eq {P Q d : ℕ} (hP : P < 8192) (hQ : Q < 4096) (hd : d < 4096) :
    term X W P Q d = X (ix2 ⟨P, hP⟩ ⟨d, hd⟩) * W (ix2 ⟨Q, hQ⟩ ⟨d, hd⟩) := dif_pos ⟨hP, hQ, hd⟩

/-- Chunk `b` of the contraction at entry (P, Q): columns `1024·b … 1024·b + 1023`. -/
def chunk (P Q b : ℕ) : EReal := ∑ k : Fin 1024, term X W P Q (b * 1024 + k.val)

/-- The contraction's partial sum over its first `r` chunks. -/
def partialSum (P Q r : ℕ) : EReal := ∑ b ∈ range r, chunk X W P Q b

theorem partialSum_one (P Q : ℕ) : partialSum X W P Q 1 = 0 + chunk X W P Q 0 := by
  unfold partialSum; rw [sum_range_one, zero_add]

theorem partialSum_succ (P Q r : ℕ) : partialSum X W P Q (r + 1) = partialSum X W P Q r + chunk X W P Q r :=
  sum_range_succ _ _

/-- All four chunks are the whole contraction. -/
theorem partialSum_four (P : Fin 8192) (Q : Fin 4096) :
    partialSum X W P.val Q.val 4 = ∑ d : Fin 4096, X (ix2 P d) * W (ix2 Q d) := by
  unfold partialSum chunk
  refine (Cert.BlockedSum.sum_fin_mul (term X W P.val Q.val) 4 1024).symm.trans ?_
  exact Finset.sum_congr rfl fun d _ => term_eq X W P.isLt Q.isLt d.isLt

/-- The linear layer on the flattened input: the contraction of row `n` of `X` with row `o` of `W`, plus `bias[o]`. -/
def affine (bias : Fin 4096 → EReal) : FVec Ideal SX .f32 :=
  fun i => (∑ d : Fin 4096, X (ix2 (i 0) d) * W (ix2 (i 1) d)) + bias (i 1)

theorem affine_apply (bias : Fin 4096 → EReal) (P : Fin 8192) (Q : Fin 4096) :
    affine X W bias (ix2 P Q) = (∑ d : Fin 4096, X (ix2 P d) * W (ix2 Q d)) + bias Q := rfl

end Cert.Linear

end
-- ==== Proof.ReferenceIsLinear.lean ====
/-
  The reference, read. After flattening the input to 8192 × 4096 the reference contracts the last axes of the
  input and the weight (`∑_d X[n, d] · W[o, d]`), adds the bias broadcast along the rows, and restores the
  three-axis shape. So its stage before the last reshape is the linear layer of the flattened input, the weight and
  the bias, entry by entry.
-/
import proofs.«126672_j33483565039897_1_alg».proof.Proof.Gen.ReferenceIdeal.Read
import proofs.«126672_j33483565039897_1_alg».proof.Proof.LinearSpec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.Linear

/-- The sum-plus-bias stage is the linear layer of the flattened input. -/
theorem sum_bias_eq_affine (x0 : (⟨S4x2048x4096, .f32⟩ : BufTy).Contents (Elt Ideal))
    (x1 : (⟨S4096x4096, .f32⟩ : BufTy).Contents (Elt Ideal)) (x2 : (⟨S4096, .f32⟩ : BufTy).Contents (Elt Ideal)) :
    val_main_v4 (F := Ideal) x0 x1 x2 = affine (val_main_v0 (F := Ideal) x0) x1 (fun o => x2 (ix1 o)) := by
  funext i
  obtain ⟨P, Q, rfl⟩ : ∃ (P : Fin 8192) (Q : Fin 4096), i = ix2 P Q := ⟨i 0, i 1, eq_ix2 i⟩
  have el : ∀ k : Fin 4096, lidx_main_v1 (ix2 P Q) k = ix2 P k := fun k => funext fun a => Fin.ext (by
    match a with
    | ⟨0, _⟩ => rfl
    | ⟨1, _⟩ => rfl)
  have er : ∀ k : Fin 4096, ridx_main_v1 (ix2 P Q) k = ix2 Q k := fun k => funext fun a => Fin.ext (by
    match a with
    | ⟨0, _⟩ => rfl
    | ⟨1, _⟩ => rfl)
  have eb : idx_main_v2 (idx_main_v3 (ix2 P Q)) = ix1 Q := funext fun a => Fin.ext (by
    match a with
    | ⟨0, _⟩ => rfl)
  rw [val_main_v4_apply, val_main_v1_apply, val_main_v3_apply, val_main_v2_apply, affine_apply, eb]
  simp only [el, er]
  rfl

/-- The reference's last stage: the linear layer of the flattened input, in the input's shape. -/
theorem result_eq (x0 : (⟨S4x2048x4096, .f32⟩ : BufTy).Contents (Elt Ideal))
    (x1 : (⟨S4096x4096, .f32⟩ : BufTy).Contents (Elt Ideal)) (x2 : (⟨S4096, .f32⟩ : BufTy).Contents (Elt Ideal)) :
    val_main_v5 (F := Ideal) x0 x1 x2
      = shapeCast S4x2048x4096 (affine (val_main_v0 (F := Ideal) x0) x1 (fun o => x2 (ix1 o))) shapeCasts_S8192x4096_S4x2048x4096 :=
  congrArg (fun v => shapeCast S4x2048x4096 v shapeCasts_S8192x4096_S4x2048x4096) (sum_bias_eq_affine x0 x1 x2)

end Cert.ReferenceIdeal.RefValue

end
-- ==== Proof.CaseValues.lean ====
/-
  What one grid point of the blocked product leaves behind, case by case, as VALUES of the blocks it loaded.

  The body keeps a running sum in a scratch block that lives across grid points. With `x` the point's block of the
  input, `w` its block of the weight, `b` its block of the bias row and `acc` what the previous point left in the
  scratch, and writing `step x w a` for "a plus the product of x with the transpose of w" (the body's second stored
  value) and `zero` for the zero block (its first):
    * at the first point of a contraction (chunk 0) the scratch is reset and ends at `step x w zero`;
    * at a middle point (chunks 1, 2) it ends at `step x w acc`;
    * at the last point (chunk 3) it ends at `step x w acc` as well, and the output block is that plus the bias
      row broadcast down the rows (the body's third stored value).
  Each statement reads the stores the body's run recorded — a single store covering the whole block, or the reset
  followed by the covering update that read the reset back — as the value stored last.
-/
import proofs.«126672_j33483565039897_1_alg».proof.Defs
import proofs.«126672_j33483565039897_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem hz : (![0, 0] : Fin 2 → Nat) = fun _ => 0 := funext fun a => by fin_cases a <;> rfl

/-- First point of a contraction: the scratch is zeroed, read back, and ends at the first chunk's product added to
    the zero block. -/
theorem scratch_reset (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle point: the scratch ends at this chunk's product added to what the point before left. -/
theorem scratch_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x1024) hz]

/-- The last point: the scratch ends at the last chunk's product added to what the point before left, -/
theorem scratch_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- and the output block at that finished sum plus the bias row. -/
theorem output_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz, View.readCov_unit_zero (S := S1024x1024) _ hz]

end Cert.KernelIdeal.CaseValues

end
-- ==== Proof.LibContractSecondAxes.lean ====
/-
  A matrix product whose two operands are BOTH read along their second axis — entry (p, q) pairs row p of the left
  operand with row q of the right one, "L · Rᵀ" — read at one entry over the extended reals.

  For dimension numbers over an [A × K] and a [B × K] operand with one contracted axis of extent K and no batch axis,
  which read the left operand at (row, k) and the right at (column, k), the contraction at output entry (p, q) is
  `∑ₖ l[p, k] · r[q, k]`. The four facts about where the dimension numbers read their operands are hypotheses, so that
  the lemmas serve any printed record of this kind: a kernel's product into a zero accumulator and the host's
  `dot_general` alike.
-/
import Idealize.ShloMosaic.PureOps.Ideal.Laws
import Idealize.ShloMosaic.Lib.ValueIdx

noncomputable section

namespace Idealize.ShloMosaic.ContractSecondAxes

open Idealize.ShloMosaic Idealize.ShloMosaic.ValueIdx

variable {A K B : Nat} {φ₁ φ₂ : FTy}

/-- The contraction at entry (p, q), re-indexed by the one contracted coordinate: `∑ₖ l[p, k] · r[q, k]`. -/
theorem contraction_at
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (k : D.contr.Idx), (D.lhsIdx i k 0).val = (i 0).val)
    (hl1 : ∀ (i : (⟨2, ![A, B]⟩ : Shape).Idx) (k : D.contr.Idx), (D.lhsIdx i k 1).val = (k ⟨0, by omega⟩).val)
    (hr0 : ∀ (i : (⟨2, ![A, B]⟩ : Shape).Idx) (k : D.contr.Idx), (D.rhsIdx i k 0).val = (i 1).val)
    (hr1 : ∀ (i : (⟨2, ![A, B]⟩ : Shape).Idx) (k : D.contr.Idx), (D.rhsIdx i k 1).val = (k ⟨0, by omega⟩).val)
    (l : FVec Ideal (⟨2, ![A, K]⟩ : Shape) φ₁) (r : FVec Ideal (⟨2, ![B, K]⟩ : Shape) φ₂) (p : Fin A) (q : Fin B) :
    ∑ k : D.contr.Idx, l (D.lhsIdx (ix2 p q) k) * r (D.rhsIdx (ix2 p q) k) = ∑ k : Fin K, l (ix2 p k) * r (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A kernel's product accumulated into the zero splat, at entry (p, q). -/
theorem matmul_zero_at
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (k : D.contr.Idx), (D.lhsIdx i k 0).val = (i 0).val)
    (hl1 : ∀ (i : (⟨2, ![A, B]⟩ : Shape).Idx) (k : D.contr.Idx), (D.lhsIdx i k 1).val = (k ⟨0, by omega⟩).val)
    (hr0 : ∀ (i : (⟨2, ![A, B]⟩ : Shape).Idx) (k : D.contr.Idx), (D.rhsIdx i k 0).val = (i 1).val)
    (hr1 : ∀ (i : (⟨2, ![A, B]⟩ : Shape).Idx) (k : D.contr.Idx), (D.rhsIdx i k 1).val = (k ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply]
  exact contraction_at D hr hs hl0 hl1 hr0 hr1 l r p q

/-- The host's `dot_general` with the same dimension numbers, at entry (p, q), whatever its schedule. -/
theorem dotGeneral_at
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (k : D.contr.Idx), (D.lhsIdx i k 0).val = (i 0).val)
    (hl1 : ∀ (i : (⟨2, ![A, B]⟩ : Shape).Idx) (k : D.contr.Idx), (D.lhsIdx i k 1).val = (k ⟨0, by omega⟩).val)
    (hr0 : ∀ (i : (⟨2, ![A, B]⟩ : Shape).Idx) (k : D.contr.Idx), (D.rhsIdx i k 0).val = (i 1).val)
    (hr1 : ∀ (i : (⟨2, ![A, B]⟩ : Shape).Idx) (k : D.contr.Idx), (D.rhsIdx i k 1).val = (k ⟨0, by omega⟩).val)
    (prec : Option ContractPrecision) (sched : HostSchedule)
    (l : FVec Ideal (⟨2, ![A, K]⟩ : Shape) φ₁) (r : FVec Ideal (⟨2, ![B, K]⟩ : Shape) φ₂) (p : Fin A) (q : Fin B) :
    FloatOps.dotGeneral D prec sched l r (ix2 p q) = ∑ k : Fin K, l (ix2 p k) * r (ix2 q k) := by
  rw [Ideal.dotGeneral_apply]
  exact contraction_at D hr hs hl0 hl1 hr0 hr1 l r p q

end Idealize.ShloMosaic.ContractSecondAxes

end
-- ==== Proof.StoredEntries.lean ====
/-
  The three values the blocked product stores, read at ONE ENTRY over the extended reals, for blocks of 1024 × 1024:

    * the zero block is `0` everywhere;
    * the accumulation step at (p, q) is `acc[p, q] + ∑_{k < 1024} x[p, k] · w[q, k]`: the input block's row p against
      the weight block's row q (both operands are contracted along their second axis; the narrowing of the operands to
      a shorter float format before the product changes nothing over the reals);
    * the biased block at (p, q) is `a[p, q] + b[0, q]`: the one-row bias block broadcast down the rows.
-/
import proofs.«126672_j33483565039897_1_alg».proof.Defs
import proofs.«126672_j33483565039897_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
import proofs.«126672_j33483565039897_1_alg».proof.Proof.LibContractSecondAxes

noncomputable section

open Idealize.ShloMosaic Idealize.ShloMosaic.TcCoe Idealize.SL.Sem

namespace Cert.KernelIdeal.StoredEntries

open Cert.KernelIdeal Cert.KernelIdeal.Gen Idealize.ShloMosaic.ValueIdx

/-! Where the product's dimension numbers read their operands: the left one at (row, k), the right one at (column, k). -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block the reset stores is zero at every entry. -/
theorem zero_at (j : S1024x1024.Idx) : k0_pay1 (F := Ideal) j = 0 := by
  unfold k0_pay1
  simp only [shapeCast_self]
  exact Ideal.ofBits_zero_f32

/-- The accumulation step at entry (p, q). -/
theorem step_at (x w acc : Vec Ideal S1024x1024 .f32) (p q : Fin 1024) :
    k0_pay2 (F := Ideal) x w acc (ix2 p q) = acc (ix2 p q) + ∑ k : Fin 1024, x (ix2 p k) * w (ix2 q k) := by
  unfold k0_pay2
  simp only [shapeCast_self]
  rw [addf_apply]
  exact congrArg (acc (ix2 p q) + ·)
    (Idealize.ShloMosaic.ContractSecondAxes.matmul_zero_at dot_S1024x1024_S1024x1024_S1024x1024_1_1_0_0_n_n rfl rfl lhs_axis0 lhs_axis1 rhs_axis0 rhs_axis1 none _ _ p q)

/-- The biased block at entry (p, q). -/
theorem biased_at (a : Vec Ideal S1024x1024 .f32) (b : Vec Ideal S1x1024 .f32) (p q : Fin 1024) :
    k0_pay3 (F := Ideal) a b (ix2 p q) = a (ix2 p q) + b (ix2 0 q) := by
  unfold k0_pay3
  simp only [shapeCast_self]
  rw [addf_apply]
  refine congrArg (a (ix2 p q) + ·) ?_
  exact broadcastTo_apply b broadcasts_S1x1024_S1024x1024 (ix2 p q) (ix2 0 q) (fun d => match d with
    | ⟨0, _⟩ => by show 0 = if (1 : Nat) = 1 then 0 else _; rw [if_pos rfl]
    | ⟨1, _⟩ => by show q.val = if (1024 : Nat) = 1 then 0 else q.val; rw [if_neg (by decide)])

end Cert.KernelIdeal.StoredEntries

end
-- ==== Proof.BlockReads.lean ====
/-
  Where a grid point's blocks sit in the arrays. The grid is 8 × 4 × 4 — row blocks of the input, row blocks of the
  weight (= column blocks of the output), chunks of the contraction — walked in row-major order, so point `t` is
  (t / 16, t / 4 mod 4, t mod 4). At that point the body sees
    * rows `1024·(t/16) …` and columns `1024·(t mod 4) …` of the flattened input,
    * rows `1024·(t/4 mod 4) …` and columns `1024·(t mod 4) …` of the weight,
    * columns `1024·(t/4 mod 4) …` of the one-row bias,
  and so the sum of products it forms at entry (p, q) of its blocks is chunk `t mod 4` of the contraction of row
  `1024·(t/16) + p` of the input with row `1024·(t/4 mod 4) + q` of the weight.
-/
import proofs.«126672_j33483565039897_1_alg».proof.Defs
import proofs.«126672_j33483565039897_1_alg».proof.Proof.Gen.KernelIdeal.Frame
import Idealize.ShloMosaic.Lib.Pipeline.Value
import Idealize.ShloMosaic.Lib.Tactic
import Idealize.ShloMosaic.Lib.ValueIdx
import proofs.«126672_j33483565039897_1_alg».proof.Proof.LinearSpec

noncomputable section

open Idealize.ShloMosaic Idealize.ShloMosaic.TcCoe Idealize.SL.Sem

namespace Cert.KernelIdeal.BlockReads

open Cert.KernelIdeal Cert.KernelIdeal.Gen Idealize.ShloMosaic.ValueIdx

variable (m : (ℓ : Loc nD τ sig) → Buf (Elt Ideal) ℓ)

/-- The three arrays as the product finds them: the flattened input, the weight, the bias as one row. -/
abbrev xarr (c : Dev nD) : Vec Ideal S8192x4096 .f32 := V m c main_v0
abbrev warr (c : Dev nD) : Vec Ideal S4096x4096 .f32 := V m c main_arg1
abbrev barr (c : Dev nD) : Vec Ideal S1x4096 .f32 := V m c main_v1

/-- The blocks of them the body loads at point `t`. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

theorem point_lt (t : Fin cfg0.N) : t.val < 128 := lt_of_lt_of_eq t.isLt (show cfg0.N = 128 from N_0)

/-- The block indices of the four windows at point `t`, decided over the grid. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Row `p` of point `t`'s input block is this row of the input; -/
def xrow (t : Fin cfg0.N) (p : Fin 1024) : Fin 8192 :=
  ⟨t.val / 16 * 1024 + p.val, by have := point_lt t; have := p.isLt; omega⟩
/-- row `q` of its weight block this row of the weight (and column `q` of its output block this column of the output); -/
def wrow (t : Fin cfg0.N) (q : Fin 1024) : Fin 4096 :=
  ⟨t.val / 4 % 4 * 1024 + q.val, by have := q.isLt; omega⟩
/-- column `k` of either this column of the contraction. -/
def kcol (t : Fin cfg0.N) (k : Fin 1024) : Fin 4096 :=
  ⟨t.val % 4 * 1024 + k.val, by have := k.isLt; omega⟩

theorem xblk_at (c : Dev nD) (t : Fin cfg0.N) (p k : Fin 1024) :
    xblk m c t (ix2 p k) = xarr m c (ix2 (xrow t p) (kcol t k)) := by
  obtain ⟨e0, e1, -⟩ := block_indices t
  unfold xblk iblk
  rw [View.read_apply]
  show V m c main_v0 _ = V m c main_v0 _
  congr 1
  funext a
  apply Fin.ext
  match a with
  | ⟨0, _⟩ => show win0_0.index t (0 : Fin 2) * 1024 + 1 * p.val = t.val / 16 * 1024 + p.val; rw [e0]; omega
  | ⟨1, _⟩ => show win0_0.index t (1 : Fin 2) * 1024 + 1 * k.val = t.val % 4 * 1024 + k.val; rw [e1]; omega

theorem wblk_at (c : Dev nD) (t : Fin cfg0.N) (q k : Fin 1024) :
    wblk m c t (ix2 q k) = warr m c (ix2 (wrow t q) (kcol t k)) := by
  obtain ⟨-, -, e0, e1, -⟩ := block_indices t
  unfold wblk iblk
  rw [View.read_apply]
  show V m c main_arg1 _ = V m c main_arg1 _
  congr 1
  funext a
  apply Fin.ext
  match a with
  | ⟨0, _⟩ => show win0_1.index t (0 : Fin 2) * 1024 + 1 * q.val = t.val / 4 % 4 * 1024 + q.val; rw [e0]; omega
  | ⟨1, _⟩ => show win0_1.index t (1 : Fin 2) * 1024 + 1 * k.val = t.val % 4 * 1024 + k.val; rw [e1]; omega

theorem bblk_at (c : Dev nD) (t : Fin cfg0.N) (q : Fin 1024) :
    bblk m c t (ix2 0 q) = barr m c (ix2 0 (wrow t q)) := by
  obtain ⟨-, -, -, -, e0, e1, -⟩ := block_indices t
  unfold bblk iblk
  rw [View.read_apply]
  show V m c main_v1 _ = V m c main_v1 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = t.val / 4 % 4 * 1024 + q.val; rw [e1]; omega

/-- The sum of products the body forms at entry (p, q) at point `t` is chunk `t mod 4` of the contraction. -/
theorem products_eq_chunk (c : Dev nD) (t : Fin cfg0.N) (p q : Fin 1024) :
    ∑ k : Fin 1024, xblk m c t (ix2 p k) * wblk m c t (ix2 q k)
      = Cert.Linear.chunk (xarr m c) (warr m c) (xrow t p).val (wrow t q).val (t.val % 4) := by
  unfold Cert.Linear.chunk
  refine Finset.sum_congr rfl fun k _ => ?_
  rw [xblk_at, wblk_at]
  exact (Cert.Linear.term_eq (xarr m c) (warr m c) (xrow t p).isLt (wrow t q).isLt (kcol t k).isLt).symm

end Cert.KernelIdeal.BlockReads

end
-- ==== Proof.RunningSum.lean ====
/-
  The running sum across the grid. Points come in runs of four that share an output block, one per chunk of the
  contraction; the scratch block carries the sum from one to the next. By induction on the point: after point `t`
  (chunk `r = t mod 4`), entry (p, q) of the scratch holds the contraction of the point's input row with its weight
  row over the first `r + 1` chunks — reset to the first chunk's sum when `r = 0`, the previous point's sum plus this
  chunk's otherwise (the previous point has the same two rows, because only the chunk coordinate moved).
  At the last chunk the output block holds that sum, now over all four chunks, plus the bias entry of its column.
-/
import proofs.«126672_j33483565039897_1_alg».proof.Defs
import proofs.«126672_j33483565039897_1_alg».proof.Proof.Gen.KernelIdeal.Frame
import Idealize.ShloMosaic.Lib.Pipeline.Value
import Idealize.ShloMosaic.Lib.Tactic
import Idealize.ShloMosaic.Lib.ValueIdx
import proofs.«126672_j33483565039897_1_alg».proof.Proof.LinearSpec
import proofs.«126672_j33483565039897_1_alg».proof.Proof.CaseValues
import proofs.«126672_j33483565039897_1_alg».proof.Proof.StoredEntries
import proofs.«126672_j33483565039897_1_alg».proof.Proof.BlockReads

noncomputable section

open Idealize.ShloMosaic Idealize.ShloMosaic.TcCoe Idealize.SL.Sem

namespace Cert.KernelIdeal.RunningSum

open Cert.KernelIdeal Cert.KernelIdeal.Gen Idealize.ShloMosaic.ValueIdx Cert.KernelIdeal.BlockReads Cert.Linear

variable (m : (ℓ : Loc nD τ sig) → Buf (Elt Ideal) ℓ)

/-- What the scratch holds after point `n`. -/
abbrev scratchAfter (c : Dev nD) (n : ℕ) (hn : n < cfg0.N) : Vec Ideal S1024x1024 .f32 := (outsAt0 m c n hn).2

/-- A first chunk's point: the zero block plus this chunk. -/
theorem scratch_first (c : Dev nD) (t : Fin cfg0.N) (h0 : t.val % 4 = 0) (p q : Fin 1024) :
    scratchAfter m c t.val t.isLt (ix2 p q)
      = 0 + chunk (xarr m c) (warr m c) (xrow t p).val (wrow t q).val (t.val % 4) := by
  have h1 : ¬t.val % 4 = 3 := by omega
  unfold scratchAfter
  rw [outsAt0_A m c t h0 h1]
  dsimp only
  refine (congrFun (CaseValues.scratch_reset (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)) (ix2 p q)).trans ?_
  rw [StoredEntries.step_at, StoredEntries.zero_at, products_eq_chunk]

/-- A later chunk's point: what the point before left plus this chunk. -/
theorem scratch_later (c : Dev nD) (t : Fin cfg0.N) (h0 : ¬t.val % 4 = 0) (p q : Fin 1024) :
    scratchAfter m c t.val t.isLt (ix2 p q)
      = scratchAfter m c (t.val - 1) (Nat.lt_of_le_of_lt (Nat.sub_le _ _) t.isLt) (ix2 p q)
        + chunk (xarr m c) (warr m c) (xrow t p).val (wrow t q).val (t.val % 4) := by
  unfold scratchAfter
  by_cases h1 : t.val % 4 = 3
  · rw [outsAt0_C m c t h0 h1]
    dsimp only
    refine (congrFun (CaseValues.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).trans ?_
    rw [StoredEntries.step_at, products_eq_chunk]
  · rw [outsAt0_B m c t h0 h1]
    dsimp only
    refine (congrFun (CaseValues.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2) (ix2 p q)).trans ?_
    rw [StoredEntries.step_at, products_eq_chunk]

/-- THE RUNNING SUM: after point `n` the scratch holds, entry by entry, the first `n mod 4 + 1` chunks of the contraction
    of the point's input row with its weight row. -/
theorem scratch_eq_partialSum (c : Dev nD) (n : ℕ) : ∀ (hn : n < cfg0.N) (p q : Fin 1024),
    scratchAfter m c n hn (ix2 p q)
      = partialSum (xarr m c) (warr m c) (n / 16 * 1024 + p.val) (n / 4 % 4 * 1024 + q.val) (n % 4 + 1) := by
  induction n with
  | zero =>
    intro hn p q
    exact (scratch_first m c ⟨0, hn⟩ rfl p q).trans (partialSum_one _ _ _ _).symm
  | succ n ih =>
    intro hn p q
    by_cases h0 : (n + 1) % 4 = 0
    · refine (scratch_first m c ⟨n + 1, hn⟩ h0 p q).trans ?_
      show 0 + chunk (xarr m c) (warr m c) ((n + 1) / 16 * 1024 + p.val) ((n + 1) / 4 % 4 * 1024 + q.val) ((n + 1) % 4) = _
      rw [h0]
      exact (partialSum_one _ _ _ _).symm
    · have hp := ih (Nat.lt_of_succ_lt hn) p q
      have e1 : n / 16 = (n + 1) / 16 := by omega
      have e2 : n / 4 % 4 = (n + 1) / 4 % 4 := by omega
      have e3 : n % 4 + 1 = (n + 1) % 4 := by omega
      rw [e1, e2, e3] at hp
      refine (scratch_later m c ⟨n + 1, hn⟩ h0 p q).trans ?_
      show scratchAfter m c n _ (ix2 p q) + chunk (xarr m c) (warr m c) ((n + 1) / 16 * 1024 + p.val) ((n + 1) / 4 % 4 * 1024 + q.val) ((n + 1) % 4) = _
      rw [hp]
      exact (partialSum_succ _ _ _ _ _).symm

/-- The bias as a function of the output column: the one-row array read at row 0. -/
abbrev biasOf (c : Dev nD) : Fin 4096 → EReal := fun o => barr m c (ix2 0 o)

/-- THE OUTPUT BLOCK at a last chunk's point: entry (p, q) is the linear layer's value at the point's input row and
    weight row — all four chunks of the contraction, plus the bias of that column. -/
theorem output_at (c : Dev nD) (t : Fin cfg0.N) (h3 : t.val % 4 = 3) (p q : Fin 1024) :
    (outsAt0 m c t.val t.isLt).1 (ix2 p q)
      = affine (xarr m c) (warr m c) (biasOf m c) (ix2 (xrow t p) (wrow t q)) := by
  have h0 : ¬t.val % 4 = 0 := by omega
  rw [outsAt0_C m c t h0 h3]
  dsimp only
  refine (congrFun (CaseValues.output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (xblk m c t) (wblk m c t) (bblk m c t) (outsAt0 m c (t.val - 1) (Nat.lt_of_le_of_lt (Nat.sub_le _ _) t.isLt)).2) (ix2 p q)).trans ?_
  rw [StoredEntries.biased_at, StoredEntries.step_at, products_eq_chunk, bblk_at, affine_apply]
  have hp := scratch_eq_partialSum m c (t.val - 1) (Nat.lt_of_le_of_lt (Nat.sub_le _ _) t.isLt) p q
  have e1 : (t.val - 1) / 16 = t.val / 16 := by omega
  have e2 : (t.val - 1) / 4 % 4 = t.val / 4 % 4 := by omega
  have e3 : (t.val - 1) % 4 + 1 = 3 := by omega
  rw [e1, e2, e3] at hp
  refine congrArg (· + barr m c (ix2 0 (wrow t q))) ?_
  refine (congrArg (· + chunk (xarr m c) (warr m c) (xrow t p).val (wrow t q).val (t.val % 4)) hp).trans ?_
  rw [h3]
  exact (partialSum_succ _ _ _ _ 3).symm.trans (partialSum_four _ _ (xrow t p) (wrow t q))

end Cert.KernelIdeal.RunningSum

end
-- ==== Proof.OutputArray.lean ====
/-
  The whole output array of the blocked product. The output's blocks are written back once each, at the last chunk's
  point of every (row block, column block) pair; block (a, b) holds rows `1024·a …` and columns `1024·b …` of the
  result, and the 8 × 4 of them tile the 8192 × 4096 array. Each block written back is the matching block of ONE
  function of the three arrays — the linear layer `X · Wᵀ + bias` — so the array ends holding that function.
-/
import proofs.«126672_j33483565039897_1_alg».proof.Defs
import proofs.«126672_j33483565039897_1_alg».proof.Proof.Gen.KernelIdeal.Frame
import Idealize.ShloMosaic.Lib.Pipeline.Value
import Idealize.ShloMosaic.Lib.Tactic
import Idealize.ShloMosaic.Lib.ValueIdx
import proofs.«126672_j33483565039897_1_alg».proof.Proof.RunningSum

noncomputable section

open Idealize.ShloMosaic Idealize.ShloMosaic.TcCoe Idealize.SL.Sem
open Idealize.ShloMosaic.Pipeline (Dat)

namespace Cert.KernelIdeal.OutputArray

open Cert.KernelIdeal Cert.KernelIdeal.Gen Idealize.ShloMosaic.ValueIdx Cert.KernelIdeal.BlockReads
  Cert.KernelIdeal.RunningSum Cert.Linear

variable (m : (ℓ : Loc nD τ sig) → Buf (Elt Ideal) ℓ)

/-- The linear layer of the arrays as the product finds them. -/
abbrev product (c : Dev nD) : Vec Ideal S8192x4096 .f32 := affine (xarr m c) (warr m c) (biasOf m c)

/-- Point `t`'s block of the product array: entry (p, q) is the array at the point's row `p` and column `q`. -/
theorem block_of_product (c : Dev nD) (t : Fin cfg0.N) :
    (((cfg0.win 3).blk t).view.read (Elt Ideal) (product m c) : Vec Ideal S1024x1024 .f32)
      = fun j => product m c (ix2 (xrow t (j 0)) (wrow t (j 1))) := by
  obtain ⟨-, -, -, -, -, -, e0, e1⟩ := block_indices t
  funext j
  rw [View.read_apply]
  show product m c _ = product m c _
  congr 1
  funext a
  apply Fin.ext
  match a with
  | ⟨0, _⟩ => show win0_3.index t (0 : Fin 2) * 1024 + 1 * (j 0).val = t.val / 16 * 1024 + (j 0).val; rw [e0]; omega
  | ⟨1, _⟩ => show win0_3.index t (1 : Fin 2) * 1024 + 1 * (j 1).val = t.val / 4 % 4 * 1024 + (j 1).val; rw [e1]; omega

/-- What a last chunk's point writes back is its block of the product array. -/
theorem flushed_eq (c : Dev nD) (t : Fin cfg0.N) (hf : (cfg0.win 3).flush t = true) :
    (dats m 0 c).flushed 3 t = ((cfg0.win 3).blk t).view.read (Elt Ideal) (product m c) := by
  have h3 : t.val % 4 = 3 := (flush0_3 t).mp hf
  show (cfg0.win 3).cut (grid0.coords t) ((dats m 0 c).after 3 t) = _
  rw [after0_3]
  refine Eq.trans ?_ (block_of_product m c t).symm
  show ((outsAt0 m c t.val t.isLt).1 : Vec Ideal S1024x1024 .f32) = _
  funext j
  obtain ⟨p, q, rfl⟩ : ∃ (p q : Fin 1024), j = ix2 p q := ⟨j 0, j 1, eq_ix2 j⟩
  exact output_at m c t h3 p q

/-- An index of the array is in point `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every entry of the array lies in the block some last chunk's point writes back: entry (n, o) in that of the point
    (n / 1024, o / 1024, 3). -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  obtain ⟨n, hn⟩ : ∃ n, n = (i 0).val / 1024 * 16 + (i 1).val / 1024 * 4 + 3 := ⟨_, rfl⟩
  have hN : n < cfg0.N := by rw [show cfg0.N = 128 from N_0]; omega
  refine ⟨⟨n, hN⟩, (flush0_3 _).mpr (by show n % 4 = 3; omega), ?_⟩
  obtain ⟨-, -, -, -, -, -, e0, e1⟩ := block_indices ⟨n, hN⟩
  rw [mem_block]
  intro a
  match a with
  | ⟨0, _⟩ =>
    show win0_3.index ⟨n, hN⟩ (0 : Fin 2) * 1024 ≤ (i 0).val ∧ (i 0).val < win0_3.index ⟨n, hN⟩ (0 : Fin 2) * 1024 + 1024
    rw [e0]; show n / 16 * 1024 ≤ (i 0).val ∧ (i 0).val < n / 16 * 1024 + 1024; omega
  | ⟨1, _⟩ =>
    show win0_3.index ⟨n, hN⟩ (1 : Fin 2) * 1024 ≤ (i 1).val ∧ (i 1).val < win0_3.index ⟨n, hN⟩ (1 : Fin 2) * 1024 + 1024
    rw [e1]; show n / 4 % 4 * 1024 ≤ (i 1).val ∧ (i 1).val < n / 4 % 4 * 1024 + 1024; omega

/-- THE ARRAY after the run is the linear layer of the arrays the product found. -/
theorem final (c : Dev nD) : (dats m 0 c).arrAt 3 cfg0.N = product m c :=
  (dats m 0 c).arrAt_eq_of_cover 3 (product m c) (flushed_eq m c) covered

end Cert.KernelIdeal.OutputArray

end
-- ==== Proof.KernelResult.lean ====
/-
  The blocked product's result, as a function of the three arguments. Around the product the program only reshapes:
  the input [4, 2048, 4096] is flattened to [8192, 4096] and the bias [4096] laid out as one row [1, 4096] before
  it, and the product array [8192, 4096] is given the input's three-axis shape after it. So every run ends with the
  result buffer at the linear layer of the flattened input, the weight and the bias, reshaped — and the arguments as
  they were.
-/
import proofs.«126672_j33483565039897_1_alg».proof.Defs
import proofs.«126672_j33483565039897_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import proofs.«126672_j33483565039897_1_alg».proof.Proof.OutputArray

noncomputable section

open Idealize.ShloMosaic Idealize.ShloMosaic.TcCoe Idealize.SL.Sem
open Idealize.ShloMosaic.Pipeline (Dat)

namespace Cert.KernelIdeal.KernelResult

open Cert.KernelIdeal Cert.KernelIdeal.Gen Idealize.ShloMosaic.ValueIdx Cert.KernelIdeal.BlockReads
  Cert.KernelIdeal.RunningSum Cert.KernelIdeal.OutputArray Cert.Linear

variable (m : (ℓ : Loc nD τ sig) → Buf (Elt Ideal) ℓ) (ρ : Dev nD → PrngReg)

/-- The input as the product finds it: the argument, flattened. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The weight as the product finds it: the argument. -/
theorem warr_eq (c : Dev nD) : warr m c = m ((c : Thread nD τ).loc main_arg1) := V_main_arg1 m c

/-- The bias row as the product finds it: the argument, as one row; so its entry in column `o` is the argument's `o`. -/
theorem barr_eq (c : Dev nD) :
    barr m c = shapeCast S1x4096 (m ((c : Thread nD τ).loc main_arg2)) shapeCasts_S4096_S1x4096 := by
  show StableHlo.after hostOps0 (fun b => m (c, b)) (Proc.devRef .tc main_v1) = _
  after_results
  rfl

theorem biasOf_eq (c : Dev nD) : biasOf m c = fun o => m ((c : Thread nD τ).loc main_arg2) (ix1 o) := by
  funext o
  show barr m c (ix2 0 o) = _
  rw [barr_eq]
  refine (shapeCast_addUnit_apply ![4096] (m ((c : Thread nD τ).loc main_arg2)) shapeCasts_S4096_S1x4096 (ix2 0 o)).trans ?_
  exact congrArg (m ((c : Thread nD τ).loc main_arg2)) (funext fun a => by match a with | ⟨0, _⟩ => rfl)

/-- The linear layer of the arguments: flattened input, weight, bias. -/
abbrev layer (c : Dev nD) : Vec Ideal S8192x4096 .f32 :=
  affine (shapeCast S8192x4096 (m ((c : Thread nD τ).loc main_arg0)) shapeCasts_S4x2048x4096_S8192x4096)
    (m ((c : Thread nD τ).loc main_arg1)) (fun o => m ((c : Thread nD τ).loc main_arg2) (ix1 o))

theorem product_eq_layer (c : Dev nD) : product m c = layer m c := by
  unfold product layer
  rw [xarr_eq, warr_eq, biasOf_eq]

/-- The result buffer after the closing reshape. -/
theorem result_eq (c : Dev nD) :
    Pipeline.afterTail₀ cfgs (dats m) 0 (V0 m) [hostOps1] c main_v3
      = shapeCast S4x2048x4096 (layer m c) shapeCasts_S8192x4096_S4x2048x4096 := by
  unfold Pipeline.afterTail₀
  show StableHlo.after hostOps1 _ (Proc.devRef .tc main_v3) = _
  after_results
  exact congrArg (fun v => shapeCast S4x2048x4096 v shapeCasts_S8192x4096_S4x2048x4096)
    (((Pipeline.withArrays_arr spec0 launch0.win.arr_inj c _ _ 3).trans (final m c)).trans (product_eq_layer m c))

/-- Every weakly fair execution ends with the result at the reshaped linear layer of the arguments and the
    arguments unchanged. -/
theorem run : θ_run defs (onTc (τ := τ) (main (F := Ideal))) ⟨m, fun _ => 0, ρ⟩ fun r => ∀ c : Dev nD,
      r.2.mem ((c.tc : Thread nD τ).loc main_v3) = shapeCast S4x2048x4096 (layer m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelResult

end
-- ==== Proof.lean ====
/-
  A linear layer `y = x · Wᵀ + b` on x : [4, 2048, 4096], W : [4096, 4096], b : [4096], computed two ways.

  The reference flattens `x` to X : [8192, 4096], contracts the last axes of X and W
  (`∑_{d < 4096} X[n, d] · W[o, d]`), adds `b[o]`, and restores the three-axis shape.

  The kernel flattens the same way, lays `b` out as one row, and tiles the product into 1024 × 1024 output blocks
  on a grid of 8 × 4 × 4 points: for each output block it walks the contraction in four chunks of 1024 columns,
  keeping a running sum in a block that lives across the four points — zeroed at the first chunk, each chunk's
  product of an input block with the transposed weight block added in turn (the operands narrowed to a shorter
  float format first, which is the identity over the reals) — and at the fourth chunk writes the sum plus the bias
  row out. The result array is then given the three-axis shape.

  Over the extended reals both are the same function, entry by entry: the four chunk sums, added to zero in order,
  are one sum over all 4096 columns regrouped — addition is associative and commutative there, so nothing about the
  entries' finiteness is used — and the bias entry added at the end is the same entry of `b`. The modules:
    LinearSpec           the function, its contraction in chunks, and that the chunks add up to it
    BlockedSum           a finite sum taken in equal consecutive blocks
    LibContractSecondAxes  a product contracting both operands' second axes, at one entry
    ReferenceIsLinear    the reference's stages are that function
    CaseValues, StoredEntries, BlockReads   one grid point: what it stores, entry by entry, of which rows and columns
    RunningSum           the induction along the grid: the carried block holds the partial contraction
    OutputArray          the written-back blocks tile the array, which ends at the function
    KernelResult         the reshapes around the product; the kernel's run
  The three runs terminate with the arguments unchanged (the kernel's two by its launch-and-body certificate, the
  reference's by reading its six operations in order); no operation of the kernel was rewritten for the idealized
  reading, so there is nothing to preserve.
-/
import proofs.«126672_j33483565039897_1_alg».proof.Defs
import proofs.«126672_j33483565039897_1_alg».proof.Proof.Gen.Kernel
import proofs.«126672_j33483565039897_1_alg».proof.Proof.Gen.Kernel.Skeleton
import proofs.«126672_j33483565039897_1_alg».proof.Proof.Gen.Kernel.Launch
import proofs.«126672_j33483565039897_1_alg».proof.Proof.Gen.Kernel.Points
import proofs.«126672_j33483565039897_1_alg».proof.Proof.Gen.Kernel.Frame
import proofs.«126672_j33483565039897_1_alg».proof.Proof.Gen.KernelIdeal
import proofs.«126672_j33483565039897_1_alg».proof.Proof.Gen.KernelIdeal.Skeleton
import proofs.«126672_j33483565039897_1_alg».proof.Proof.Gen.KernelIdeal.Launch
import proofs.«126672_j33483565039897_1_alg».proof.Proof.Gen.KernelIdeal.Points
import proofs.«126672_j33483565039897_1_alg».proof.Proof.Gen.KernelIdeal.Frame
import proofs.«126672_j33483565039897_1_alg».proof.Proof.Gen.ReferenceIdeal
import proofs.«126672_j33483565039897_1_alg».proof.Proof.Gen.Pre_finite_inputs
import proofs.«126672_j33483565039897_1_alg».proof.Proof.Gen.ReferenceIdeal.Run
import proofs.«126672_j33483565039897_1_alg».proof.Proof.Gen.ReferenceIdeal.Read
import proofs.«126672_j33483565039897_1_alg».proof.Proof.ReferenceIsLinear
import proofs.«126672_j33483565039897_1_alg».proof.Proof.KernelResult
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arguments that agree, the kernel ends at the reshaped linear layer of its arguments and the reference at the
    reshaped linear layer of its own: the same array. -/
theorem algebraic : Cert.algebraic_KernelIdeal_ReferenceIdeal := by
  intro m ρ m' ρ' _ hagree
  refine ⟨_, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v5_eq _ _ _).trans ((Cert.ReferenceIdeal.RefValue.result_eq _ _ _).trans ?_)
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
